-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S1000x512 : Shape := ⟨2, ![1000, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S131072x512 .f32) (main_arg1 : IVec S131072 32) (main_arg2 : FVec F S1000x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 1 := constantI S_ 1 1#1
  let main_v11 : IVec S_ 1 := (fun x v => Host.reduce IntOp.andi x v reducesTo_S131072_S_d0 h_S_) main_v10 main_c_3
  let main_v12 : IVec S_ 1 := andi main_v8 main_v11
  let main_c_4 : IVec S_ 32 := constantI S_ 32 1000#32
  let main_v13 : IVec S131072 32 := broadcastInDim S131072 ![] bcast_S_S131072 main_c_4
  let main_v14 : IVec S131072 1 := cmpi .slt main_arg1 main_v13
  let main_c_5 : IVec S_ 1 := constantI S_ 1 1#1
  let main_v15 : IVec S_ 1 := (fun x v => Host.reduce IntOp.andi x v reducesTo_S131072_S_d0 h_S_) main_v14 main_c_5
  fn_part1 (F := F) main_v12 main_v15
-- ==== Kernel.lean ====
abbrev S131072x512 : Shape := ⟨2, ![131072, 512]⟩
abbrev S131072 : Shape := ⟨1, ![131072]⟩
abbrev S1000x512 : Shape := ⟨2, ![1000, 512]⟩
abbrev S131072x1 : Shape := ⟨2, ![131072, 1]⟩
abbrev S_ : Shape := ⟨0, ![]⟩
abbrev S1024x512 : Shape := ⟨2, ![1024, 512]⟩
abbrev S1 : Shape := ⟨1, ![1]⟩
abbrev S16x128 : Shape := ⟨2, ![16, 128]⟩
abbrev S2048x512 : Shape := ⟨2, ![2048, 512]⟩
abbrev S2048x1 : Shape := ⟨2, ![2048, 1]⟩
abbrev S8x128 : Shape := ⟨2, ![8, 128]⟩
abbrev S1x1 : Shape := ⟨2, ![1, 1]⟩
abbrev S1x1024 : Shape := ⟨2, ![1, 1024]⟩
abbrev S2048x1024 : Shape := ⟨2, ![2048, 1024]⟩
abbrev S2048 : Shape := ⟨1, ![2048]⟩

abbrev nBuf : Space → Nat
  | .hbm => 19
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S1000x512, .f32⟩
  | .hbm, ⟨3, _⟩ => ⟨S131072x1, .i32⟩
  | .hbm, ⟨4, _⟩ => ⟨S_, .f32⟩
  | .hbm, ⟨5, _⟩ => ⟨S1024x512, .f32⟩
  | .hbm, ⟨6, _⟩ => ⟨S_, .i32⟩
  | .hbm, ⟨7, _⟩ => ⟨S1, .i32⟩
  | .hbm, ⟨8, _⟩ => ⟨S1024x512, .f32⟩
  | .hbm, ⟨9, _⟩ => ⟨S1024x512, .bf16⟩
  | .hbm, ⟨10, _⟩ => ⟨S16x128, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1024x512, .bf16⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S131072_S131072x1 : S131072.ShapeCasts S131072x1
  bcast_S_S1024x512 : S_.BroadcastsInDim S1024x512 (![] : Fin 0 → Fin S1024x512.rank)
  bcast_S_S1 : S_.BroadcastsInDim S1 (![] : Fin 0 → Fin S1.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x1024_d1_w32 : S1x1024.Iotas .tc 32 [1]
  broadcasts_S2048x1_S2048x1024 : S2048x1.Broadcasts S2048x1024
  broadcasts_S1x1024_S2048x1024 : S1x1024.Broadcasts S2048x1024
  natLt_1_32 : 1 < 32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  shapeCasts_S_S1x1 : S_.ShapeCasts S1x1
  scatter_S1024x512_S1_S1000x512_01_n_0_0_wf : ScatterDims.WF S1024x512 S1 S1000x512 [0, 1] [] [0] 0
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def scatter_S1024x512_S1_S1000x512_01_n_0_0 : ScatterDims S1024x512 S1 S1000x512 where
  updateWindowDims := [0, 1]
  insertedWindowDims := []
  scatterDimsToOperandDims := [0]
  indexVectorDim := 0
  wf := scatter_S1024x512_S1_S1000x512_01_n_0_0_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x512 : Shape := ⟨2, ![131072, 512]⟩
abbrev S131072 : Shape := ⟨1, ![131072]⟩
abbrev S1000x512 : Shape := ⟨2, ![1000, 512]⟩
abbrev S_ : Shape := ⟨0, ![]⟩
abbrev S131072x1 : Shape := ⟨2, ![131072, 1]⟩
abbrev S1x1 : Shape := ⟨2, ![1, 1]⟩

abbrev nBuf : Space → Nat
  | .hbm => 21
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S1000x512, .f32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S131072, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x512_S131072_d1 : S131072x512.ReducesTo [1] S131072
  h_S_ : 0 < S_.numel
  reducesTo_S131072_S_d0 : S131072.ReducesTo [0] S_
  shapeCasts_S_S1x1 : S_.ShapeCasts S1x1
  gather_S1000x512_S131072x1_S131072x512_1_0_n_n_0_1_1512_wf : GatherDims.WF S1000x512 S131072x1 S131072x512 [1] [0] [] [0] [] 1 ![1, 512]

variable [Facts₀]

def gather_S1000x512_S131072x1_S131072x512_1_0_n_n_0_1_1512 : GatherDims S1000x512 S131072x1 S131072x512 where
  offsetDims := [1]
  collapsedSliceDims := [0]
  operandBatchingDims := []
  startIndicesBatchingDims := []
  startIndexMap := [0]
  indexVectorDim := 1
  sliceSizes := ![1, 512]
  wf := gather_S1000x512_S131072x1_S131072x512_1_0_n_n_0_1_1512_wf

class Facts : Prop extends Facts₀ where

variable [Facts]
-- ==== Proof.Spec.lean ====
/-
  The quantity both programs compute, stated once as a function of the three argument arrays.

  Sample `n` has a feature row `x[n, ·]` of 512 entries and a label word; the label names a row of the table of 1000
  prototypes. The squared distance of the sample to its prototype is the sum over the 512 entries of the squared
  difference, and the result is the mean of these over the 131072 samples, a 1×1 array. Everything is read on the
  extended reals. A label word is read as a natural number and capped at the last row, 999: for a label in the table's
  range the cap does nothing, and it makes the definition total.
-/
import Idealize.ShloMosaic.PureOps.Ideal
import Idealize.ShloMosaic.Lib.ValueIdx

noncomputable section

open scoped BigOperators

namespace Cert.Spec

open Idealize.ShloMosaic Idealize.ShloMosaic.ValueIdx

/-- The features: 131072 samples of 512 entries. -/
abbrev SFeat : Shape := ⟨2, ![131072, 512]⟩
/-- One label word a sample. -/
abbrev SLab : Shape := ⟨1, ![131072]⟩
/-- The prototypes: 1000 rows of 512 entries. -/
abbrev SProto : Shape := ⟨2, ![1000, 512]⟩
/-- The result: one number, as a 1×1 array. -/
abbrev SOut : Shape := ⟨2, ![1, 1]⟩

/-- The prototype row a label word names: the word as a natural number, capped at the last row. -/
def protoRow (l : BitVec 32) : Fin 1000 := ⟨min l.toNat 999, by omega⟩

/-- For a label inside the table the cap does nothing. -/
theorem protoRow_val_of_lt (l : BitVec 32) (h : l.toNat < 1000) : (protoRow l).val = l.toNat := by
  show min l.toNat 999 = l.toNat
  omega

/-- Every label names a row of the table: read as a natural number it is below 1000. -/
def InRange (lab : IVec SLab 32) : Prop := ∀ i, (lab i).toNat < 1000

/-- The squared distance of sample `n` to the prototype its label names. -/
def sqDist (x : FVec Ideal SFeat .f32) (lab : IVec SLab 32) (P : FVec Ideal SProto .f32) (n : Fin 131072) : EReal :=
  ∑ d : Fin 512, (x (ix2 n d) - P (ix2 (protoRow (lab (ix1 n))) d)) * (x (ix2 n d) - P (ix2 (protoRow (lab (ix1 n))) d))

/-- The sum of the squared distances over all samples. -/
def total (x : FVec Ideal SFeat .f32) (lab : IVec SLab 32) (P : FVec Ideal SProto .f32) : EReal :=
  ∑ n : Fin 131072, sqDist x lab P n

/-- The mean squared distance, as the 1×1 result array. -/
def meanDist (x : FVec Ideal SFeat .f32) (lab : IVec SLab 32) (P : FVec Ideal SProto .f32) : FVec Ideal SOut .f32 :=
  fun _ => total x lab P * ((1 / 131072 : ℝ) : EReal)

end Cert.Spec

end
-- ==== Proof.LabelRange.lean ====
/-
  The label range, read out of the precondition.

  The precondition is a conjunction of four "all elements" tests, each an `and`-reduction of a one-bit array
  down to a single bit: every feature finite, every prototype finite, every label word at least 0 as a signed
  number, every label word below 1000 as a signed number. When the conjunction is the bit 1, each of the four
  reductions is 1, and a reduction by `and` that is 1 met a 1 at every element. So at each sample the label
  word `v` satisfies `0 ≤ v` and `v < 1000` in the signed reading. A 32-bit word whose signed reading is not
  negative has its top bit clear, so its signed and its natural reading are the same number; hence the natural
  reading is below 1000 as well.
-/
import proofs.«418353_j2035814498849_2_alg».proof.Pre_finite_inputs
import proofs.«418353_j2035814498849_2_alg».proof.Proof.Spec
import Idealize.ShloMosaic.Lib.ReduceAll
import Idealize.ShloMosaic.Lib.StableHlo.Predicate

namespace Cert.LabelRange

open Idealize.ShloMosaic

/-- A 32-bit word that is at least 0 and below 1000 in the signed reading is below 1000 in the natural reading:
    the signed reading is the natural one when the top bit is clear and the natural one minus 2³² otherwise, and
    the second case is negative. -/
theorem toNat_lt_of_signed (v : BitVec 32) (h0 : (0#32 : BitVec 32).toInt ≤ v.toInt)
    (h1 : v.toInt < (1000#32 : BitVec 32).toInt) : v.toNat < 1000 := by
  have e0 : (0#32 : BitVec 32).toInt = 0 := by decide
  have e1 : (1000#32 : BitVec 32).toInt = 1000 := by decide
  rw [e0] at h0
  rw [e1] at h1
  have hc := BitVec.toInt_eq_toNat_cond v
  have hlt := v.isLt
  split at hc <;> omega

/-- The scalar shape has exactly one index. -/
instance : Subsingleton Cert.Pre_finite_inputs.S_.Idx := ⟨fun a b => funext fun d => d.elim0⟩

/-- If the precondition holds of the three argument arrays, every label word, read as a natural number, is below 1000. -/
theorem inRange_of_pre {F : FTy → Type} [FloatOps F] [Cert.Pre_finite_inputs.Facts]
    (x0 : FVec F Cert.Pre_finite_inputs.S131072x512 .f32) (x1 : IVec Cert.Pre_finite_inputs.S131072 32)
    (x2 : FVec F Cert.Pre_finite_inputs.S1000x512 .f32)
    (h : Cert.Pre_finite_inputs.fn (F := F) x0 x1 x2 = fun _ => 1#1) : Cert.Spec.InRange x1 := by
  intro i
  -- the one bit of the conjunction
  have h0 := congrFun h ValueIdx.ix0
  dsimp only [Cert.Pre_finite_inputs.fn, Cert.Pre_finite_inputs.fn_part1] at h0
  -- split off the two tests on the labels (the third and the fourth conjunct)
  obtain ⟨h123, h4⟩ := IntOp.andi_eq_one.1 h0
  obtain ⟨_, h3⟩ := IntOp.andi_eq_one.1 h123
  -- a reduction by `and` that is 1 had a 1 at every element: read both tests at sample `i`
  have hge := Host.reduce_andi_all _ _ _ _ _ h3 i
  have hlt := Host.reduce_andi_all _ _ _ _ _ h4 i
  -- the constant broadcast to all samples reads the constant at `i`
  have hge' : IntOp.cmpi .sge (x1 i) 0#32 = 1#1 := by
    rw [← hge]
    show _ = IntOp.cmpi .sge (x1 i) _
    rw [StableHlo.Predicate.bcast_scalar _ Cert.Pre_finite_inputs.Facts.h_S_]
    rfl
  have hlt' : IntOp.cmpi .slt (x1 i) 1000#32 = 1#1 := by
    rw [← hlt]
    show _ = IntOp.cmpi .slt (x1 i) _
    rw [StableHlo.Predicate.bcast_scalar _ Cert.Pre_finite_inputs.Facts.h_S_]
    rfl
  -- the two signed comparisons, then the passage to the natural reading
  exact toNat_lt_of_signed (x1 i) (IntOp.cmpi_sge.1 hge') (IntOp.cmpi_slt.1 hlt')

end Cert.LabelRange
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.RefValue.lean ====
import proofs.«418353_j2035814498849_2_alg».proof.Proof.Gen.ReferenceIdeal.Run
import proofs.«418353_j2035814498849_2_alg».proof.Proof.Gen.ReferenceIdeal.Read
import proofs.«418353_j2035814498849_2_alg».proof.Proof.Spec
import proofs.«418353_j2035814498849_2_alg».proof.Proof.LibSums
import Idealize.ShloMosaic.Lib.ValueIdx
import Idealize.ShloMosaic.Lib.Pipeline.Value
import Idealize.ShloMosaic.Lib.StableHlo.Predicate
import Idealize.ShloMosaic.PureOps.Ideal.Laws

/-
  The reference program computes the specification.

  The reference wraps a negative label by adding 1000, gathers the prototype row the label names, subtracts it from the
  sample's feature row, squares, sums each row, sums the rows, divides by 131072 and returns the quotient as a 1×1
  array. A label inside the table's range is non-negative as a signed word, so the wrap leaves it alone, and the gather's
  clamp of the start index to [0, 999] is the cap in Spec.protoRow. Each stage is read at an index; the two sums are the
  specification's two sums, and the division by the constant 131072 is the product with its reciprocal.
-/

noncomputable section

open scoped BigOperators

namespace Cert.RefValue

open Idealize.ShloMosaic Idealize.ShloMosaic.ValueIdx Cert.ReferenceIdeal Cert.ReferenceIdeal.Read

variable [Cert.ReferenceIdeal.Facts]

/-! ## The label after the wrap -/

/-- A label word below 1000 is not negative as a signed word: the comparison with 0 gives the bit 0. -/
theorem slt_zero_of_lt (l : BitVec 32) (h : l.toNat < 1000) : IntOp.cmpi .slt l 0#32 = 0#1 := by
  refine eq_zero_of_ne_one fun hc => ?_
  have h2 := (StableHlo.Predicate.slt_iff_toNat (a := l) (b := 0#32) (by omega) (by decide)).1 hc
  simp at h2

/-- Under the range hypothesis the select keeps the label: the wrapped labels are the labels. -/
theorem label_kept (x1 : IVec S131072 32) (h : Cert.Spec.InRange x1) (n : Fin 131072) :
    val_main_v4 (F := Ideal) x1 (ix1 n) = x1 (ix1 n) := by
  rw [val_main_v4_apply, val_main_v1_apply, val_main_v0_apply, val_main_c_apply,
    slt_zero_of_lt _ (h (ix1 n)), select_zero]

/-- The start indices of the gather, a 131072×1 array, hold the labels. -/
theorem start_indices (x1 : IVec S131072 32) (h : Cert.Spec.InRange x1) (n : Fin 131072) :
    val_main_v5 (F := Ideal) x1 (ix2 n (0 : Fin 1)) = x1 (ix1 n) := by
  rw [val_main_v5_apply]
  have e : idx_main_v5 (ix2 n (0 : Fin 1)) = ix1 n := by
    funext a; match a with | ⟨0, _⟩ => rfl
  rw [e, label_kept x1 h n]

/-! ## The gather -/

/-- The gather's dimension numbers: rows of the table (axis 0) are picked by the start index, whole rows (axis 1) are
    copied. -/
local notation "G" => gather_S1000x512_S131072x1_S131072x512_1_0_n_n_0_1_1512

/-- A word below 1000 read as a signed integer and brought back to the naturals is its unsigned reading. -/
theorem toInt_toNat_of_lt (l : BitVec 32) (h : l.toNat < 1000) : l.toInt.toNat = l.toNat := by
  rw [BitVec.toInt_eq_toNat_of_lt (by omega)]
  exact Int.toNat_natCast _

/-- THE GATHER READ AT (n, d): entry d of the prototype row that sample n's label names. -/
theorem gather_apply (x1 : IVec S131072 32) (x2 : FVec Ideal S1000x512 .f32) (h : Cert.Spec.InRange x1)
    (n : Fin 131072) (d : Fin 512) :
    val_main_v6 (F := Ideal) x1 x2 (ix2 n d) = x2 (ix2 (Cert.Spec.protoRow (x1 (ix1 n))) d) := by
  unfold val_main_v6 Host.gather
  refine congrArg x2 (funext fun a => Fin.ext ?_)
  match a with
  | ⟨0, _⟩ =>
    show GatherDims.start G (ix2 n d) (val_main_v5 (F := Ideal) x1) 0 + GatherDims.batchCoord G (ix2 n d) 0
        + GatherDims.offCoord G (ix2 n d) 0 = (Cert.Spec.protoRow (x1 (ix1 n))).val
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ GatherDims.startIndexMap G from List.mem_singleton.mpr rfl)]
    have hsi : GatherDims.siIdx G (ix2 n d) ⟨List.idxOf (0 : Fin 2) (GatherDims.startIndexMap G),
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, start_indices x1 h n, toInt_toNat_of_lt _ (h (ix1 n))]
    rfl
  | ⟨1, _⟩ =>
    show GatherDims.start G (ix2 n d) (val_main_v5 (F := Ideal) x1) 1 + GatherDims.batchCoord G (ix2 n d) 1
        + GatherDims.offCoord G (ix2 n d) 1 = d.val
    rw [GatherDims.batchCoord_eq_zero _ _ _ List.not_mem_nil]
    unfold GatherDims.start
    rw [dif_neg (show (1 : Fin 2) ∉ GatherDims.startIndexMap G from by
      intro hm; exact absurd (List.mem_singleton.mp hm) (by decide))]
    simp only [Nat.add_zero, Nat.zero_add]
    unfold GatherDims.offCoord
    rw [dif_pos (show (1 : Fin 2) ∈ GatherDims.sKept G from by decide)]
    rfl

/-! ## The stages after the gather, read at an index -/

/-- The squared difference at (n, d). -/
theorem sq_apply (x0 : FVec Ideal S131072x512 .f32) (x1 : IVec S131072 32) (x2 : FVec Ideal S1000x512 .f32)
    (h : Cert.Spec.InRange x1) (n : Fin 131072) (d : Fin 512) :
    val_main_v8 (F := Ideal) x0 x1 x2 (ix2 n d)
      = (x0 (ix2 n d) - x2 (ix2 (Cert.Spec.protoRow (x1 (ix1 n))) d))
        * (x0 (ix2 n d) - x2 (ix2 (Cert.Spec.protoRow (x1 (ix1 n))) d)) := by
  rw [val_main_v8_apply, val_main_v7_apply, gather_apply x1 x2 h n d]
  rfl

/-- The row sum at n is the squared distance of sample n to its prototype: the sum starts from the constant 0. -/
theorem row_apply (x0 : FVec Ideal S131072x512 .f32) (x1 : IVec S131072 32) (x2 : FVec Ideal S1000x512 .f32)
    (h : Cert.Spec.InRange x1) (n : Fin 131072) :
    val_main_v9 (F := Ideal) x0 x1 x2 (ix1 n) = Cert.Spec.sqDist x0 x1 x2 n := by
  rw [val_main_v9_apply, val_main_cst_apply]
  show Ideal.ofBits .f32 0x00000000#32 + _ = _
  rw [Ideal.ofBits_zero_f32, zero_add]
  unfold Cert.Spec.sqDist
  refine Finset.sum_congr rfl fun k _ => ?_
  have e : idx_main_v9 (ix1 n) k = ix2 n k := by
    funext a; match a with | ⟨0, _⟩ => rfl | ⟨1, _⟩ => rfl
  rw [e, sq_apply x0 x1 x2 h n k]

/-- The sum of the row sums is the specification's total. -/
theorem total_apply (x0 : FVec Ideal S131072x512 .f32) (x1 : IVec S131072 32) (x2 : FVec Ideal S1000x512 .f32)
    (h : Cert.Spec.InRange x1) (i : S_.Idx) :
    val_main_v10 (F := Ideal) x0 x1 x2 i = Cert.Spec.total x0 x1 x2 := by
  rw [val_main_v10_apply, val_main_cst_1_apply]
  show Ideal.ofBits .f32 0x00000000#32 + _ = _
  rw [Ideal.ofBits_zero_f32, zero_add, Cert.LibSums.sum_idx1]
  unfold Cert.Spec.total
  exact Finset.sum_congr rfl fun n _ => row_apply x0 x1 x2 h n

/-! ## The divisor -/

/-- The f32 pattern 0x48000000 is 2^17 = 131072. -/
theorem ofBits_131072 : Ideal.ofBits .f32 0x48000000#32 = ((131072 : ℝ) : EReal) := by
  simp [Ideal.ofBits, Ideal.ieee, -EReal.coe_mul]; norm_num

/-! ## The result -/

/-- THE REFERENCE'S RESULT IS THE SPECIFICATION: for labels inside the table, the 1×1 array the reference returns holds
    the mean squared distance. The reshape from rank 0 reads the one element at every index; the quotient by 131072 is
    the product with its reciprocal. -/
theorem ref_value (x0 : FVec Ideal Cert.ReferenceIdeal.S131072x512 .f32) (x1 : IVec Cert.ReferenceIdeal.S131072 32)
    (x2 : FVec Ideal Cert.ReferenceIdeal.S1000x512 .f32) (h : Cert.Spec.InRange x1) :
    Cert.ReferenceIdeal.Read.val_main_v12 (F := Ideal) x0 x1 x2 = Cert.Spec.meanDist x0 x1 x2 := by
  funext j
  have e : val_main_v12 (F := Ideal) x0 x1 x2 j = val_main_v11 (F := Ideal) x0 x1 x2 ix0 := by
    unfold val_main_v12 shapeCast
    exact congrArg _ (funext fun a => a.elim0)
  rw [e, val_main_v11_apply, val_main_cst_2_apply, total_apply x0 x1 x2 h]
  show Ideal.div (Cert.Spec.total x0 x1 x2) (Ideal.ofBits .f32 0x48000000#32) = _
  rw [ofBits_131072, Ideal.div_coe (by norm_num)]
  rfl

end Cert.RefValue

end
-- ==== Proof.Pieces.lean ====
/-
  What one grid step leaves behind, case by case.

  A step is in one of three cases: the first step of a core (the running sum is reset to zero, then the block's sum is
  added), a middle step (the block's sum is added to what the step before left), and the last step of a core (the same,
  and then the output block is filled with the running sum). In each case the running sum ends at the accumulated
  value of the step's three input blocks and of what the running sum held before (zero in the first case), and in
  the last case the output block ends at the copy of that.
-/
import proofs.«418353_j2035814498849_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-- A middle step: the running sum, found at `xs`, ends at the accumulated value of the step's blocks and `xs`. -/
theorem sout_B (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x512 .f32) (x1 : Vec F S2048x1 .i32) (x2 : Vec F S1024x512 .bf16) (xs : Vec F S1x1 .f32) :
    sout0_B_0 c i arg2 harg2 arg3 harg3 arg4 harg4 arg5 harg5 arg6 harg6 hc0 hc1 x0 x1 x2 xs = k0_pay2 x1 x2 x0 xs := by
  unfold sout0_B_0
  rw [View.read_writes_eq_canon _ _ _ (scover0_B_0 c i arg2 harg2 arg3 harg3 arg4 harg4 arg5 harg5 arg6 harg6 hc0 hc1 x0 x1 x2 xs)]
  unfold kernelRun0_B
  dsimp only
  sl_unfold_words
  rw [View.canon_unit_zero hz]
  simp only [View.readAt_eq_ld, harg2.read_unread, harg3.read_unread, harg4.read_unread, harg6.read_unread,
    View.ld_unit_zero (S := S2048x1) hz, View.ld_unit_zero (S := S1024x512) hz, View.ld_unit_zero (S := S2048x512) hz,
    View.ld_unit_zero (S := S1x1) hz]

/-- The last step of a core: the running sum ends as at a middle step. -/
theorem sout_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S2048x1 .i32) (x2 : Vec F S1024x512 .bf16) (xs : Vec F S1x1 .f32) :
    sout0_C_0 c i arg2 harg2 arg3 harg3 arg4 harg4 arg5 harg5 arg6 harg6 hc0 hc1 x0 x1 x2 xs = k0_pay2 x1 x2 x0 xs := by
  unfold sout0_C_0
  rw [View.read_writes_eq_canon _ _ _ (scover0_C_0 c i arg2 harg2 arg3 harg3 arg4 harg4 arg5 harg5 arg6 harg6 hc0 hc1 x0 x1 x2 xs)]
  unfold kernelRun0_C
  dsimp only
  sl_unfold_words
  rw [View.canon_unit_zero hz]
  simp only [View.readAt_eq_ld, harg2.read_unread, harg3.read_unread, harg4.read_unread, harg6.read_unread,
    View.ld_unit_zero (S := S2048x1) hz, View.ld_unit_zero (S := S1024x512) hz, View.ld_unit_zero (S := S2048x512) hz,
    View.ld_unit_zero (S := S1x1) hz]

/-- The last step of a core: the output block ends at the copy of the running sum just stored. -/
theorem out_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x512 .f32) (x1 : Vec F S2048x1 .i32) (x2 : Vec F S1024x512 .bf16) (xs : Vec F S1x1 .f32) :
    out0_C_3 c i arg2 harg2 arg3 harg3 arg4 harg4 arg5 harg5 arg6 harg6 hc0 hc1 x0 x1 x2 xs = k0_pay3 (k0_pay2 x1 x2 x0 xs) := by
  unfold out0_C_3
  rw [View.read_writes_eq_canon _ _ _ (cover0_C_3 c i arg2 harg2 arg3 harg3 arg4 harg4 arg5 harg5 arg6 harg6 hc0 hc1 x0 x1 x2 xs)]
  unfold kernelRun0_C
  dsimp only
  sl_unfold_words
  rw [View.canon_unit_zero hz]
  simp only [View.readCov_unit_zero (S := S1x1) _ hz, View.readAt_eq_ld, harg2.read_unread, harg3.read_unread, harg4.read_unread, harg6.read_unread,
    View.ld_unit_zero (S := S2048x1) hz, View.ld_unit_zero (S := S1024x512) hz, View.ld_unit_zero (S := S2048x512) hz,
    View.ld_unit_zero (S := S1x1) hz]

/-- The first step of a core: the running sum is reset to the zero value, read back, and ends at the accumulated value
    of the step's blocks and that zero value. -/
theorem sout_A (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x512 .f32) (x1 : Vec F S2048x1 .i32) (x2 : Vec F S1024x512 .bf16) :
    sout0_A_0 c i arg2 harg2 arg3 harg3 arg4 harg4 arg5 harg5 arg6 harg6 hc0 hc1 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread,
    View.ld_unit_zero (S := S2048x1) hz, View.ld_unit_zero (S := S1024x512) hz, View.ld_unit_zero (S := S2048x512) hz]

end Cert.KernelIdeal.Pieces

end
-- ==== Proof.PaddedTable.lean ====
/-
  The prototype table padded from 1000 to 1024 rows.

  The program writes the 1000 x 512 table into rows 0 .. 999 of a 1024 x 512 array of zeros, as ONE scatter whose
  single scatter index is 0 and whose update window is the whole table. The scatter is a left fold over the
  512000 update elements; each step writes one element of the table at the position with the same two
  coordinates. Read at row k and column d the result is the table's entry when k < 1000 and zero otherwise.

  First part: a fold of point writes at pairwise distinct positions, over any types. Read at a position some
  element writes, the fold is that element's value; read at a position no element writes, it is the initial
  array. Second part: a scatter whose body returns the update and whose update elements all land inside the
  operand at pairwise distinct positions, read at an index. Third part: this program's scatter.
-/
import proofs.«418353_j2035814498849_2_alg».proof.KernelIdeal
import Idealize.ShloMosaic.Lib.ValueIdx
import Mathlib.Data.List.Nodup
import Mathlib.Data.List.FinRange

namespace Cert.PaddedTable

/-! ## A fold of point writes -/

section Fold

variable {ι κ β : Type}

/-- A position that no element of the list writes keeps its initial value. A step is a point write: element \`n\`
    leaves every position other than \`e n\` as it was. -/
theorem foldl_write_of_forall_ne (step : (κ → β) → ι → (κ → β)) (e : ι → κ) (l : List ι)
    (hmiss : ∀ n ∈ l, ∀ (r : κ → β) (i' : κ), i' ≠ e n → step r n i' = r i')
    (x : κ → β) (i' : κ) (hne : ∀ n ∈ l, e n ≠ i') :
    l.foldl step x i' = x i' := by
  induction l generalizing x with
  | nil => rfl
  | cons a l ih =>
    rw [List.foldl_cons,
      ih (fun n hn => hmiss n (List.mem_cons_of_mem a hn)) (step x a) (fun n hn => hne n (List.mem_cons_of_mem a hn)),
      hmiss a List.mem_cons_self x i' (fun h => hne a List.mem_cons_self h.symm)]

/-- A position written by an element of the list holds that element's value, when the elements of the list are
    pairwise distinct and write at pairwise distinct positions: no later step writes there again. -/
theorem foldl_write_of_mem (step : (κ → β) → ι → (κ → β)) (e : ι → κ) (v : ι → β) (l : List ι)
    (hhit : ∀ n ∈ l, ∀ r : κ → β, step r n (e n) = v n)
    (hmiss : ∀ n ∈ l, ∀ (r : κ → β) (i' : κ), i' ≠ e n → step r n i' = r i')
    (hinj : ∀ n ∈ l, ∀ m ∈ l, e n = e m → n = m) (hnd : l.Nodup)
    (x : κ → β) (n : ι) (hn : n ∈ l) :
    l.foldl step x (e n) = v n := by
  induction l generalizing x with
  | nil => exact absurd hn List.not_mem_nil
  | cons a l ih =>
    have hnd' := List.nodup_cons.1 hnd
    rw [List.foldl_cons]
    rcases List.mem_cons.1 hn with rfl | hnl
    · rw [foldl_write_of_forall_ne step e l (fun m hm => hmiss m (List.mem_cons_of_mem _ hm)) (step x n) (e n)
          (fun m hm h => hnd'.1 (by
            have := hinj m (List.mem_cons_of_mem _ hm) n List.mem_cons_self h
            rw [← this]; exact hm)),
        hhit n List.mem_cons_self x]
    · exact ih (fun m hm => hhit m (List.mem_cons_of_mem a hm)) (fun m hm => hmiss m (List.mem_cons_of_mem a hm))
        (fun p hp q hq => hinj p (List.mem_cons_of_mem a hp) q (List.mem_cons_of_mem a hq)) hnd'.2 (step x a) hnl

end Fold

open Idealize.ShloMosaic Idealize.ShloMosaic.ValueIdx

/-! ## A scatter that sets distinct positions -/

section Scatter

variable {α : Type} {w : Nat} {s si u : Shape}

/-- The scatter read at the position an update element lands at is that element, when every update element lands
    inside the operand (at \`e j\`) and distinct elements land at distinct positions. Stated at the row-major
    number of the update element, the fold's own variable. -/
theorem scatter_set_at_num (d : ScatterDims s si u) (x : s.Idx → α) (idx : IVec si w) (upd : u.Idx → α)
    (e : u.Idx → s.Idx) (he : ∀ j, d.resultIdx? j idx = some (e j)) (hinj : Function.Injective e)
    (n : Fin u.numel) :
    Host.scatter d (fun _ b => b) x idx upd (e (u.rowMajor.symm n)) = upd (u.rowMajor.symm n) := by
  unfold Host.scatter
  exact foldl_write_of_mem _ (fun n => e (u.rowMajor.symm n)) (fun n => upd (u.rowMajor.symm n)) _
    (fun n _ r => by
      dsimp only
      rw [he]
      exact if_pos rfl)
    (fun n _ r i' hne => by
      dsimp only
      rw [he]
      exact if_neg hne)
    (fun n _ m _ h => u.rowMajor.symm.injective (hinj h)) (List.nodup_finRange _) x n (List.mem_finRange n)

/-- The same at an update index. -/
theorem scatter_set_of_mem (d : ScatterDims s si u) (x : s.Idx → α) (idx : IVec si w) (upd : u.Idx → α)
    (e : u.Idx → s.Idx) (he : ∀ j, d.resultIdx? j idx = some (e j)) (hinj : Function.Injective e)
    (j : u.Idx) :
    Host.scatter d (fun _ b => b) x idx upd (e j) = upd j := by
  have := scatter_set_at_num d x idx upd e he hinj (u.rowMajor j)
  rwa [Equiv.symm_apply_apply] at this

/-- The scatter read at a position where no update element lands is the operand. -/
theorem scatter_set_of_forall_ne (d : ScatterDims s si u) (x : s.Idx → α) (idx : IVec si w) (upd : u.Idx → α)
    (e : u.Idx → s.Idx) (he : ∀ j, d.resultIdx? j idx = some (e j))
    (i : s.Idx) (hne : ∀ j, e j ≠ i) :
    Host.scatter d (fun _ b => b) x idx upd i = x i := by
  unfold Host.scatter
  exact foldl_write_of_forall_ne _ (fun n => e (u.rowMajor.symm n)) _
    (fun n _ r i' hne => by
      dsimp only
      rw [he]
      exact if_neg hne)
    x i (fun n _ => hne (u.rowMajor.symm n))

end Scatter

/-! ## This program's scatter -/

open Cert.KernelIdeal

variable {F : FTy → Type} [FloatOps F] [Cert.KernelIdeal.Facts]

open Cert.KernelIdeal.Facts₀

/-- The scatter indices: the one index word, zero. -/
abbrev idx0 : IVec S1 32 := broadcastInDim S1 ![] bcast_S_S1 (constantI S_ 32 0#32)

/-- The window starts at 0 on both axes: on axis 0 the start is the index word 0 read as a signed number, and
    axis 1 is not named by the scatter's axis map. -/
theorem start_eq (j : S1000x512.Idx) (a : Fin 2) :
    scatter_S1024x512_S1_S1000x512_01_n_0_0.start j idx0 a = 0 := by
  unfold ScatterDims.start
  split
  · rfl
  · rfl

/-- The window covers both axes in order, so the window coordinate on an axis is the update index's coordinate. -/
theorem window_eq (j : S1000x512.Idx) (a : Fin 2) :
    scatter_S1024x512_S1_S1000x512_01_n_0_0.window j a = (j a).val := by
  match a with
  | ⟨0, _⟩ => rfl
  | ⟨1, _⟩ => rfl

/-- The position in the padded array with the same two coordinates as a table index. -/
def emb (j : S1000x512.Idx) : S1024x512.Idx :=
  ix2 (⟨(j 0).val, by have := idx2_lt0 j; omega⟩ : Fin 1024) (j 1 : Fin 512)

/-- Every update element lands inside the padded array, at the position with its own two coordinates. -/
theorem resultIdx_eq (j : S1000x512.Idx) :
    scatter_S1024x512_S1_S1000x512_01_n_0_0.resultIdx? j idx0 = some (emb j) := by
  have h0 := idx2_lt0 j
  have h1 := idx2_lt1 j
  have hin : ∀ a : Fin 2, 0 ≤ scatter_S1024x512_S1_S1000x512_01_n_0_0.start j idx0 a
        + scatter_S1024x512_S1_S1000x512_01_n_0_0.window j a
      ∧ scatter_S1024x512_S1_S1000x512_01_n_0_0.start j idx0 a
        + scatter_S1024x512_S1_S1000x512_01_n_0_0.window j a < S1024x512.size a := by
    intro a
    rw [start_eq, window_eq]
    match a with
    | ⟨0, _⟩ => exact ⟨by omega, by show (0 : Int) + ((j 0).val : Int) < 1024; omega⟩
    | ⟨1, _⟩ => exact ⟨by omega, by show (0 : Int) + ((j 1).val : Int) < 512; omega⟩
  unfold ScatterDims.resultIdx?
  rw [dif_pos hin]
  refine congrArg some (funext fun a => Fin.ext ?_)
  show (scatter_S1024x512_S1_S1000x512_01_n_0_0.start j idx0 a
      + scatter_S1024x512_S1_S1000x512_01_n_0_0.window j a).toNat = (emb j a).val
  rw [start_eq, window_eq]
  match a with
  | ⟨0, _⟩ => show ((0 : Int) + ((j 0).val : Int)).toNat = (j 0).val; omega
  | ⟨1, _⟩ => show ((0 : Int) + ((j 1).val : Int)).toNat = (j 1).val; omega

/-- Distinct table indices land at distinct positions. -/
theorem emb_injective : Function.Injective emb := by
  intro j j' h
  have e0 : (j 0).val = (j' 0).val := by
    have := congrArg Fin.val (congrFun h 0)
    exact this
  have e1 : j 1 = j' 1 := congrFun h 1
  funext a
  match a with
  | ⟨0, _⟩ => exact Fin.ext e0
  | ⟨1, _⟩ => exact e1

/-- The padded table read at row \`k\` and column \`d\`: the table's entry when the row is one of its 1000, else zero. -/
theorem padded_apply (P : FVec F S1000x512 .f32) (k : Fin 1024) (d : Fin 512) :
    Host.scatter scatter_S1024x512_S1_S1000x512_01_n_0_0 (fun _ b => b)
      (broadcastInDim S1024x512 ![] bcast_S_S1024x512 (constant S_ .f32 0x00000000#32) : FVec F S1024x512 .f32)
      (broadcastInDim S1 ![] bcast_S_S1 (constantI S_ 32 0#32) : IVec S1 32) P (ix2 k d)
    = if hk : k.val < 1000 then P (ix2 ⟨k.val, hk⟩ d) else FloatOps.ofBits .f32 0x00000000#32 := by
  by_cases hk : k.val < 1000
  · rw [dif_pos hk]
    -- row k is a row of the table: the position is the one the table's element (k, d) lands at
    have hpos : ix2 k d = emb (ix2 (⟨k.val, hk⟩ : Fin 1000) d) := by
      funext a
      match a with
      | ⟨0, _⟩ => rfl
      | ⟨1, _⟩ => rfl
    rw [hpos]
    exact scatter_set_of_mem scatter_S1024x512_S1_S1000x512_01_n_0_0 _ idx0 P emb resultIdx_eq emb_injective _
  · rw [dif_neg hk]
    -- row k is past the table: every element of the table lands in a row below 1000
    refine (scatter_set_of_forall_ne scatter_S1024x512_S1_S1000x512_01_n_0_0 _ idx0 P emb resultIdx_eq (ix2 k d)
      (fun j h => hk ?_)).trans rfl
    have e0 : (j 0).val = k.val := by
      have := congrArg Fin.val (congrFun h 0)
      exact this
    have := idx2_lt0 j
    omega

end Cert.PaddedTable
-- ==== Proof.Blocks.lean ====
/-
  What a grid step's three input blocks hold, read off the argument arrays.

  The grid has 64 steps; step `t` reads rows `2048 t … 2048 t + 2047` of the features and the labels of the same rows, and
  the whole padded table. The labels reach the kernel as a 131072 × 1 column, a reshape of the label vector, so the
  label block's entry (r, 0) is the label of row `2048 t + r`. The table reaches it as the 1024 × 512 array whose first
  1000 rows are the prototypes and whose other rows are zero, cast to the narrower float format, which on the extended
  reals changes nothing.
-/
import proofs.«418353_j2035814498849_2_alg».proof.Proof.Gen.KernelIdeal.Frame
import proofs.«418353_j2035814498849_2_alg».proof.Proof.PaddedTable
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

/-- Where the windows' blocks sit at step `t`: the features' and the labels' block is block `t` of rows, the table's is
    the whole table, and the output's is block `t / 32` of rows (one block a core). Decided once over the 64 steps. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val / 32 ∧ win0_3.index t (1 : Fin 2) = 0 :=
  (by decide +kernel : ∀ t : Fin grid0.N, _)

section AnyValues

variable {F : FTy → Type} [FloatOps F]
variable (m : (ℓ : Loc nD τ sig) → Buf (Elt F) ℓ)

/-- The step's feature block, label block and table block, under names of their literal types. -/
abbrev featBlk (c : Dev nD) (t : Fin cfg0.N) : Vec F S2048x512 .f32 := iblk m c 0 t
abbrev labBlk (c : Dev nD) (t : Fin cfg0.N) : Vec F S2048x1 .i32 := iblk m c 1 t
abbrev tabBlk (c : Dev nD) (t : Fin cfg0.N) : Vec F S1024x512 .bf16 := iblk m c 2 t

/-- Entry (r, d) of step `t`'s feature block is entry (2048 t + r, d) of the features. -/
theorem featBlk_apply (c : Dev nD) (t : Fin cfg0.N) (r : Fin 2048) (d : Fin 512) (hn : t.val * 2048 + r.val < 131072) :
    featBlk m c t (ix2 r d) = m ((c : Thread nD τ).loc main_arg0) (ix2 ⟨t.val * 2048 + r.val, hn⟩ d) := by
  show iblk m c 0 t (ix2 r d) = _
  unfold iblk
  rw [View.read_apply]
  show V m c main_arg0 _ = _
  rw [V_main_arg0]
  congr 1
  funext a
  apply Fin.ext
  match a with
  | ⟨0, _⟩ => show win0_0.index t 0 * 2048 + 1 * r.val = t.val * 2048 + r.val; rw [(idx_facts t).1]; omega
  | ⟨1, _⟩ => show win0_0.index t 1 * 512 + 1 * d.val = d.val; rw [(idx_facts t).2.1]; omega

/-- The label column the kernel reads is the label vector reshaped. -/
theorem V_labels (c : Dev nD) :
    (V m c main_v0 : S131072x1.Idx → BitVec 32)
      = shapeCast S131072x1 (m ((c : Thread nD τ).loc main_arg1)) Gen.shapeCasts_S131072_S131072x1 := by
  show StableHlo.after hostOps0 (fun b => m (c, b)) (Proc.devRef .tc main_v0) = _
  after_results
  rfl

/-- Entry (r, 0) of step `t`'s label block is the label of row 2048 t + r. -/
theorem labBlk_apply (c : Dev nD) (t : Fin cfg0.N) (r : Fin 2048) (hn : t.val * 2048 + r.val < 131072) :
    labBlk m c t (ix2 r (0 : Fin 1)) = m ((c : Thread nD τ).loc main_arg1) (ix1 ⟨t.val * 2048 + r.val, hn⟩) := by
  show iblk m c 1 t (ix2 r (0 : Fin 1)) = _
  unfold iblk
  rw [View.read_apply]
  show V m c main_v0 _ = _
  rw [V_labels]
  refine (shapeCast_apply _ _ _ (ix1 ⟨t.val * 2048 + r.val, hn⟩) ?_)
  rw [Shape.rowMajor_val_one, Shape.rowMajor_val_two]
  show t.val * 2048 + r.val = (win0_1.index t 0 * 2048 + 1 * r.val) * 1 + (win0_1.index t 1 * 1 + 1 * 0)
  rw [(idx_facts t).2.2.1, (idx_facts t).2.2.2.1]
  omega

end AnyValues

section IdealValues

variable (m : (ℓ : Loc nD τ sig) → Buf (Elt Ideal) ℓ)

/-- The table the kernel reads: the prototypes written into the first 1000 rows of a 1024 × 512 array of zeros, then cast
    to the narrower format. -/
theorem V_table (c : Dev nD) :
    (V m c main_v4 : S1024x512.Idx → EReal)
      = truncf .bf16 (Host.scatter scatter_S1024x512_S1_S1000x512_01_n_0_0 (fun _ b => b)
          (broadcastInDim S1024x512 ![] Gen.bcast_S_S1024x512 (constant S_ .f32 0x00000000#32) : FVec Ideal S1024x512 .f32)
          (broadcastInDim S1 ![] Gen.bcast_S_S1 (constantI S_ 32 0#32) : IVec S1 32)
          (m ((c : Thread nD τ).loc main_arg2))) Gen.bitsLt_bf16_f32 := by
  show StableHlo.after hostOps0 (fun b => m (c, b)) (Proc.devRef .tc main_v4) = _
  after_results

/-- Entry (k, d) of the table block, at any step: the prototype's entry for a row below 1000, zero for a padding row. -/
theorem tabBlk_apply (c : Dev nD) (t : Fin cfg0.N) (k : Fin 1024) (d : Fin 512) :
    tabBlk m c t (ix2 k d)
      = if hk : k.val < 1000 then (m ((c : Thread nD τ).loc main_arg2) : S1000x512.Idx → EReal) (ix2 ⟨k.val, hk⟩ d)
        else (0 : EReal) := by
  show iblk m c 2 t (ix2 k d) = _
  unfold iblk
  rw [View.read_apply]
  have hemb : ((cfg0.win 2).blk t).view.emb (ix2 k d) = (ix2 k d : S1024x512.Idx) := by
    funext a
    apply Fin.ext
    match a with
    | ⟨0, _⟩ => show win0_2.index t 0 * 1024 + 1 * k.val = k.val; rw [(idx_facts t).2.2.2.2.1]; omega
    | ⟨1, _⟩ => show win0_2.index t 1 * 512 + 1 * d.val = d.val; rw [(idx_facts t).2.2.2.2.2.1]; omega
  have hV : (V m c (Pipeline.arrRef spec0 2) : S1024x512.Idx → EReal) (ix2 k d)
      = if hk : k.val < 1000 then (m ((c : Thread nD τ).loc main_arg2) : S1000x512.Idx → EReal) (ix2 ⟨k.val, hk⟩ d)
        else (0 : EReal) := by
    show (V m c main_v4 : S1024x512.Idx → EReal) (ix2 k d) = _
    rw [V_table, truncf_apply, Cert.PaddedTable.padded_apply]
    by_cases hk : k.val < 1000
    · rw [dif_pos hk, dif_pos hk]
    · rw [dif_neg hk, dif_neg hk]
      exact Ideal.ofBits_zero_f32
  exact (congrArg (V m c (Pipeline.arrRef spec0 2) : S1024x512.Idx → EReal) hemb).trans hV

end IdealValues

end Cert.KernelIdeal.Blocks

end
-- ==== Proof.Payload.lean ====
/-
  What one grid step adds to the running sum, read on the extended reals.

  At one step the kernel holds a block of 2048 feature rows, the 2048 label words of those rows, and the whole table of
  1024 rows (the 1000 prototypes and 24 rows of padding). It builds the 2048 × 1024 matrix with a one in row `r` at the
  column the label of row `r` names and zeros elsewhere, multiplies it with the table, subtracts the product from the
  features, squares, sums each row over its 512 entries, sums the 2048 row sums, and adds the result to the running sum
  it carries. A row of the indicator matrix times the table is the table's row the label names: the other 1023 terms of
  the sum are zero times something, which is zero on the extended reals too. So the step adds
  `∑ r, ∑ d, (x[r, d] − T[label r, d])²` to what it found, for any labels below 1024.
-/
import proofs.«418353_j2035814498849_2_alg».proof.Proof.Gen.KernelIdeal.Skeleton
import proofs.«418353_j2035814498849_2_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.KernelIdeal.Pay

open Idealize.ShloMosaic Idealize.ShloMosaic.ValueIdx Cert.KernelIdeal Cert.KernelIdeal.Gen

variable [Cert.KernelIdeal.Facts]
open Cert.KernelIdeal.Facts₀ Cert.KernelIdeal.Facts

/-! ## The indicator entry -/

/-- The indicator of "the label word is the column's number", as the kernel computes it: the one-bit result of the
    comparison widened to a word and read as a signed integer. It is one when the label, as a natural number, is the
    column, and zero otherwise. -/
theorem indicator_val (l : BitVec 32) (k : ℕ) (hk : k < 1024) :
    ((((IntOp.cmpi .eq l (BitVec.ofNat 32 k)).setWidth 32).toInt : ℝ) : EReal) = if l.toNat = k then 1 else 0 := by
  by_cases h : l = BitVec.ofNat 32 k
  · have hc : IntOp.cmpi .eq l (BitVec.ofNat 32 k) = 1#1 := StableHlo.Predicate.cmpi_eq_iff.2 h
    have hn : l.toNat = k := by rw [h, BitVec.toNat_ofNat]; exact Nat.mod_eq_of_lt (by omega)
    rw [hc, if_pos hn]
    norm_num
  · have hc : IntOp.cmpi .eq l (BitVec.ofNat 32 k) = 0#1 :=
      eq_zero_of_ne_one fun h1 => h (StableHlo.Predicate.cmpi_eq_iff.1 h1)
    have hn : ¬ l.toNat = k := fun hn => h (BitVec.eq_of_toNat_eq (by
      rw [hn, BitVec.toNat_ofNat]; exact (Nat.mod_eq_of_lt (by omega)).symm))
    rw [hc, if_neg hn]
    norm_num

/-- A row of the indicator matrix times a column of the table is the table's entry in the row the label names: of the
    1024 products one is `1 * p`, the others `0 * p = 0`, on the extended reals as on the reals. -/
theorem sum_indicator_mul (l : BitVec 32) (hl : l.toNat < 1024) (p : Fin 1024 → EReal) :
    ∑ k : Fin 1024, (if l.toNat = k.val then (1 : EReal) else 0) * p k = p ⟨l.toNat, hl⟩ := by
  rw [Finset.sum_eq_single (⟨l.toNat, hl⟩ : Fin 1024)]
  · rw [if_pos rfl, one_mul]
  · intro k _ hk
    rw [if_neg (fun h => hk (Fin.ext h.symm)), zero_mul]
  · intro h; exact absurd (Finset.mem_univ _) h

/-! ## The product's operand indices -/

/-- The matrix product's dimension numbers: rows of the left operand, columns of the right, contraction over the left's
    columns and the right's rows. -/
abbrev dotRec := dot_S2048x1024_S1024x512_S2048x512_1_0_0_1_n_n

theorem lhs_axis0 (j : S2048x512.Idx) (k : dotRec.contr.Idx) :
    (dotRec.lhsIdx j k (0 : Fin S2048x1024.rank)).val = (j 0).val := by
  unfold DotDims.lhsIdx
  rw [dif_neg (show ¬(0 : Fin S2048x1024.rank) ∈ dot_S2048x1024_S1024x512_S2048x512_1_0_0_1_n_n.lhsBatch by decide),
    dif_pos (show (0 : Fin S2048x1024.rank) ∈ dot_S2048x1024_S1024x512_S2048x512_1_0_0_1_n_n.lhsNonContracting by decide)]
  rfl

theorem lhs_axis1 (j : S2048x512.Idx) (k : dotRec.contr.Idx) :
    (dotRec.lhsIdx j k (1 : Fin S2048x1024.rank)).val = (k ⟨0, by decide⟩).val :=
  dot_S2048x1024_S1024x512_S2048x512_1_0_0_1_n_n.lhsIdx_val_of_single (cl := (1 : Fin S2048x1024.rank)) rfl j k

theorem rhs_axis0 (j : S2048x512.Idx) (k : dotRec.contr.Idx) :
    (dotRec.rhsIdx j k (0 : Fin S1024x512.rank)).val = (k ⟨0, by decide⟩).val :=
  dot_S2048x1024_S1024x512_S2048x512_1_0_0_1_n_n.rhsIdx_val_of_single (cr := (0 : Fin S1024x512.rank)) rfl j k

theorem rhs_axis1 (j : S2048x512.Idx) (k : dotRec.contr.Idx) :
    (dotRec.rhsIdx j k (1 : Fin S1024x512.rank)).val = (j 1).val := by
  unfold DotDims.rhsIdx
  rw [dif_neg (show ¬(1 : Fin S1024x512.rank) ∈ dot_S2048x1024_S1024x512_S2048x512_1_0_0_1_n_n.rhsBatch by decide),
    dif_pos (show (1 : Fin S1024x512.rank) ∈ dot_S2048x1024_S1024x512_S2048x512_1_0_0_1_n_n.rhsNonContracting by decide)]
  rfl

/-- The product into a zero accumulator, read at row `r` and column `d`: the sum over the 1024 columns of the left
    operand's row against the right operand's column. -/
theorem matmul_at (A : FVec Ideal S2048x1024 .bf16) (B : FVec Ideal S1024x512 .bf16) (r : Fin 2048) (d : Fin 512) :
    matmul dotRec none A B (constant S2048x512 .f32 0x00000000#32) (ix2 r d)
      = ∑ k : Fin 1024, A (ix2 r k) * B (ix2 k d) := by
  simp only [matmul]
  rw [Ideal.matmul_constant_zero_apply]
  rw [← Equiv.sum_comp (contrEquiv1 dotRec 1024 rfl rfl).symm]
  refine Finset.sum_congr rfl fun k _ => ?_
  have hk := contrEquiv1_symm_val dotRec 1024 rfl rfl k
  congr 1
  · refine congrArg A (funext fun a => Fin.ext ?_)
    match a with
    | ⟨0, _⟩ => exact lhs_axis0 _ _
    | ⟨1, _⟩ => exact (lhs_axis1 _ _).trans hk
  · refine congrArg B (funext fun a => Fin.ext ?_)
    match a with
    | ⟨0, _⟩ => exact (rhs_axis0 _ _).trans hk
    | ⟨1, _⟩ => exact rhs_axis1 _ _

/-! ## The indicator matrix -/

/-- The indicator matrix's entry in row `r` and column `k`: the block's label column broadcast along the rows is compared
    with the column numbers broadcast down the columns, and the bit is converted to a float. It is one where the label of
    row `r` is `k`, else zero. -/
theorem onehot_at (lab : IVec S2048x1 32) (h1 : S2048x1.Broadcasts S2048x1024) (hi : S1x1024.Iotas .tc 32 [1])
    (h2 : S1x1024.Broadcasts S2048x1024) (h3 : 1 < 32) (h4 : FTy.bits .bf16 < FTy.bits .f32) (r : Fin 2048) (k : Fin 1024) :
    (truncf .bf16 (sitofp .f32 (extui 32 (cmpi .eq (broadcastTo S2048x1024 lab h1)
        (broadcastTo S2048x1024 (iota .tc S1x1024 32 [1] hi) h2)) h3) : FVec Ideal S2048x1024 .f32) h4
        : FVec Ideal S2048x1024 .bf16) (ix2 r k)
      = if (lab (ix2 r (0 : Fin 1))).toNat = k.val then 1 else 0 := by
  have e1 : broadcastTo S2048x1024 lab h1 (ix2 r k) = lab (ix2 r (0 : Fin 1)) :=
    broadcastTo_apply lab h1 (ix2 r k) (ix2 r (0 : Fin 1)) (fun a => by
      match a with
      | ⟨0, _⟩ => exact (if_neg (show ¬ (2048 : ℕ) = 1 by decide)).symm
      | ⟨1, _⟩ => exact (if_pos rfl).symm)
  have e2 : broadcastTo S2048x1024 (iota .tc S1x1024 32 [1] hi) h2 (ix2 r k) = BitVec.ofNat 32 k.val := by
    refine (broadcastTo_apply (iota .tc S1x1024 32 [1] hi) h2 (ix2 r k) (ix2 (0 : Fin 1) k) (fun a => by
      match a with
      | ⟨0, _⟩ => exact (if_pos rfl).symm
      | ⟨1, _⟩ => exact (if_neg (show ¬ (1024 : ℕ) = 1 by decide)).symm)).trans ?_
    exact iota_single_apply .tc S1x1024 32 1 hi _
  show ((((IntOp.cmpi .eq (broadcastTo S2048x1024 lab h1 (ix2 r k))
      (broadcastTo S2048x1024 (iota .tc S1x1024 32 [1] hi) h2 (ix2 r k))).setWidth 32).toInt : ℝ) : EReal) = _
  rw [e1, e2]
  exact indicator_val _ _ k.isLt

/-- The indicator matrix times the table, read at row `r` and entry `d`: the table's entry `d` in the row the label of
    row `r` names, for a label below the table's height. -/
theorem gathered_at (lab : IVec S2048x1 32) (T : FVec Ideal S1024x512 .bf16) (h1 : S2048x1.Broadcasts S2048x1024)
    (hi : S1x1024.Iotas .tc 32 [1]) (h2 : S1x1024.Broadcasts S2048x1024) (h3 : 1 < 32)
    (h4 : FTy.bits .bf16 < FTy.bits .f32) (hl : ∀ r : Fin 2048, (lab (ix2 r (0 : Fin 1))).toNat < 1024)
    (r : Fin 2048) (d : Fin 512) :
    matmul dotRec none
      (truncf .bf16 (sitofp .f32 (extui 32 (cmpi .eq (broadcastTo S2048x1024 lab h1)
        (broadcastTo S2048x1024 (iota .tc S1x1024 32 [1] hi) h2)) h3) : FVec Ideal S2048x1024 .f32) h4
        : FVec Ideal S2048x1024 .bf16)
      T (constant S2048x512 .f32 0x00000000#32) (ix2 r d)
      = T (ix2 ⟨(lab (ix2 r (0 : Fin 1))).toNat, hl r⟩ d) := by
  rw [matmul_at]
  refine (Finset.sum_congr rfl fun k _ => ?_).trans (sum_indicator_mul _ (hl r) fun k => T (ix2 k d))
  rw [onehot_at lab h1 hi h2 h3 h4 r k]

/-! ## The accumulated value -/

/-- The value the kernel stores back into its one-entry running sum at a step: what the running sum held, plus the sum
    over the block's 2048 rows and 512 entries of the squared difference between the feature and the table's entry in the
    row the label names. Stated for labels below 1024, the table's height, at the one index of the 1 × 1 array. -/
theorem pay2_apply (x1 : Vec Ideal S2048x1 .i32) (x2 : Vec Ideal S1024x512 .bf16) (x0 : Vec Ideal S2048x512 .f32)
    (xs : Vec Ideal S1x1 .f32) (hl : ∀ r : Fin 2048, (x1 (ix2 r (0 : Fin 1))).toNat < 1024) (j : S1x1.Idx) :
    k0_pay2 (F := Ideal) x1 x2 x0 xs j
      = xs j + ∑ r : Fin 2048, ∑ d : Fin 512,
          (x0 (ix2 r d) - x2 (ix2 ⟨(x1 (ix2 r (0 : Fin 1))).toNat, hl r⟩ d))
            * (x0 (ix2 r d) - x2 (ix2 ⟨(x1 (ix2 r (0 : Fin 1))).toNat, hl r⟩ d)) := by
  unfold k0_pay2
  dsimp only
  simp only [shapeCast_self]
  show xs j + _ = _
  congr 1
  refine (shapeCast_apply _ _ j (ix1 (0 : Fin 1)) ?_).trans ?_
  · rw [Shape.rowMajor_val_one, Shape.rowMajor_val_two]
    have h0 := (j 0).isLt; have h1 := (j 1).isLt
    simp only [Matrix.cons_val_zero, Matrix.cons_val_one] at h0 h1 ⊢
    show (0 : ℕ) = _
    omega
  refine (Ideal.multiReduction_add_single _ _ _ _ _ _).trans ?_
  refine Finset.sum_congr rfl fun r _ => ?_
  refine (shapeCast_apply _ _ _ (ix1 r) ?_).trans ?_
  · rw [Shape.rowMajor_val_one, Shape.rowMajor_val_two]
    show r.val = r.val * 1 + 0
    omega
  refine (Ideal.multiReduction_add_single _ _ _ _ _ _).trans ?_
  refine Finset.sum_congr rfl fun d _ => ?_
  have hidx : ∀ h : S2048x512.Reduces [1] S2048, h.lift (ix1 r) d = (ix2 r d : S2048x512.Idx) :=
    fun h => funext fun a => Fin.ext (by match a with | ⟨0, _⟩ => rfl | ⟨1, _⟩ => rfl)
  refine (congrArg _ (hidx _)).trans ?_
  rw [mulf_apply, subf_apply]
  rw [gathered_at x1 x2 Gen.broadcasts_S2048x1_S2048x1024 Gen.iota_S1x1024_d1_w32 Gen.broadcasts_S1x1024_S2048x1024
    Gen.natLt_1_32 Gen.bitsLt_bf16_f32 hl r d]

/-! ## The reset value and the output block -/

/-- At a core's first step the running sum is reset: the stored value is zero. -/
theorem pay1_apply (j : S1x1.Idx) : k0_pay1 (F := Ideal) j = 0 := by
  unfold k0_pay1
  rw [shapeCast_self]
  show Ideal.ofBits .f32 0x00000000#32 = 0
  exact Ideal.ofBits_zero_f32

/-- At a core's last step the output block is the running sum copied to each of its 8 × 128 entries. -/
theorem pay3_apply (v : Vec Ideal S1x1 .f32) (i : S8x128.Idx) :
    k0_pay3 (F := Ideal) v i = v (ix2 (0 : Fin 1) (0 : Fin 1)) := by
  unfold k0_pay3
  rw [shapeCast_self]
  exact broadcastTo_apply v _ i (ix2 (0 : Fin 1) (0 : Fin 1)) (fun a => by
    match a with
    | ⟨0, _⟩ => exact (if_pos rfl).symm
    | ⟨1, _⟩ => exact (if_pos rfl).symm)

end Cert.KernelIdeal.Pay

end
-- ==== Proof.Accum.lean ====
/-
  The running sum over the steps.

  Row `n` of the data contributes its squared distance; a step's block contributes the sum of its 2048 rows' terms. The
  kernel's one-entry running sum is reset at a core's first step (steps 0 and 32), so after step `n` it holds the sum of the
  block totals of the steps from the core's first one to `n`; at a core's last step (31 and 63) the output block is filled
  with it. The two cores' final sums together are the sum over all 64 blocks, which is the sum over all 131072 rows.
  Addition on the extended reals is commutative and associative, so no finiteness is used.
-/
import proofs.«418353_j2035814498849_2_alg».proof.Proof.Pieces
import proofs.«418353_j2035814498849_2_alg».proof.Proof.Blocks
import proofs.«418353_j2035814498849_2_alg».proof.Proof.Payload
import proofs.«418353_j2035814498849_2_alg».proof.Proof.Spec
import proofs.«418353_j2035814498849_2_alg».proof.Proof.LibSums

set_option maxRecDepth 16384

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks

variable (m : (ℓ : Loc nD τ sig) → Buf (Elt Ideal) ℓ)

/-- The three argument arrays as the program is launched with them. -/
abbrev feat (c : Dev nD) : FVec Ideal Cert.Spec.SFeat .f32 := m ((c : Thread nD τ).loc main_arg0)
abbrev labs (c : Dev nD) : IVec Cert.Spec.SLab 32 := m ((c : Thread nD τ).loc main_arg1)
abbrev protos (c : Dev nD) : FVec Ideal Cert.Spec.SProto .f32 := m ((c : Thread nD τ).loc main_arg2)

/-- Row `n`'s squared distance, by the row's number; zero past the last row. -/
def rowTerm (c : Dev nD) (n : ℕ) : EReal :=
  if h : n < 131072 then Cert.Spec.sqDist (feat m c) (labs m c) (protos m c) ⟨n, h⟩ else 0

/-- Block `t`'s total: the sum of its 2048 rows' terms. -/
def blockTotal (c : Dev nD) (t : ℕ) : EReal := ∑ r : Fin 2048, rowTerm m c (t * 2048 + r.val)

/-- ONE STEP: with the step's blocks, the value stored back into the running sum is what it held plus the block's total
    (labels inside the table). -/
theorem step_val (c : Dev nD) (hr : Cert.Spec.InRange (labs m c)) (t : Fin cfg0.N) (xs : Vec Ideal S1x1 .f32) (j : S1x1.Idx) :
    k0_pay2 (F := Ideal) (labBlk m c t) (tabBlk m c t) (featBlk m c t) xs j = xs j + blockTotal m c t.val := by
  have hN : t.val < 64 := lt_of_lt_of_eq t.isLt (show cfg0.N = 64 from N_0)
  have hlab : ∀ r : Fin 2048, labBlk m c t (ix2 r (0 : Fin 1)) = labs m c (ix1 ⟨t.val * 2048 + r.val, by have := r.isLt; omega⟩) :=
    fun r => labBlk_apply m c t r (by have := r.isLt; omega)
  have hl : ∀ r : Fin 2048, (labBlk m c t (ix2 r (0 : Fin 1))).toNat < 1024 := fun r => by
    rw [hlab r]; exact lt_trans (hr _) (by decide)
  rw [Cert.KernelIdeal.Pay.pay2_apply _ _ _ _ hl j]
  congr 1
  unfold blockTotal
  refine Finset.sum_congr rfl fun r _ => ?_
  have hn : t.val * 2048 + r.val < 131072 := by have := r.isLt; omega
  unfold rowTerm
  rw [dif_pos hn]
  unfold Cert.Spec.sqDist
  refine Finset.sum_congr rfl fun d _ => ?_
  have key : ∀ (l : BitVec 32) (h : l.toNat < 1024), l = labs m c (ix1 ⟨t.val * 2048 + r.val, hn⟩) →
      tabBlk m c t (ix2 (⟨l.toNat, h⟩ : Fin 1024) d)
        = protos m c (ix2 (Cert.Spec.protoRow (labs m c (ix1 ⟨t.val * 2048 + r.val, hn⟩))) d) := by
    rintro l h rfl
    have hlt := hr (ix1 ⟨t.val * 2048 + r.val, hn⟩)
    rw [tabBlk_apply m c t _ d, dif_pos hlt]
    refine congrArg (protos m c) (funext fun a => Fin.ext ?_)
    match a with
    | ⟨0, _⟩ => exact (Cert.Spec.protoRow_val_of_lt _ hlt).symm
    | ⟨1, _⟩ => rfl
  rw [key _ (hl r) (hlab r), featBlk_apply m c t r d hn]

/-- The running sum's one entry after step `n`. -/
def acc (c : Dev nD) (n : ℕ) (h : n < cfg0.N) : EReal := (outsAt0 m c n h).2 (ix2 (0 : Fin 1) (0 : Fin 1))

/-- After a core's first step the running sum is that step's block total. -/
theorem acc_first (c : Dev nD) (hr : Cert.Spec.InRange (labs m c)) (t : Fin cfg0.N) (h0 : t.val % 32 = 0) :
    acc m c t.val t.isLt = blockTotal m c t.val := by
  have h1 : ¬t.val % 32 = 31 := by omega
  unfold acc
  rw [outsAt0_A m c t h0 h1]
  dsimp only
  refine (congrFun (Cert.KernelIdeal.Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 (0 : Fin 1) (0 : Fin 1))).trans ?_
  refine (step_val m c hr t (k0_pay1 (F := Ideal)) _).trans ?_
  rw [Cert.KernelIdeal.Pay.pay1_apply, zero_add]

/-- After any other step it is what the step before left plus the step's block total. -/
theorem acc_next (c : Dev nD) (hr : Cert.Spec.InRange (labs m c)) (t : Fin cfg0.N) (h0 : ¬t.val % 32 = 0) :
    acc m c t.val t.isLt = acc m c (t.val - 1) (Nat.lt_of_le_of_lt (Nat.sub_le _ _) t.isLt) + blockTotal m c t.val := by
  unfold acc
  by_cases h1 : t.val % 32 = 31
  · rw [outsAt0_C m c t h0 h1]
    dsimp only
    refine (congrFun (Cert.KernelIdeal.Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 (0 : Fin 1) (0 : Fin 1))).trans ?_
    exact step_val m c hr t _ _
  · rw [outsAt0_B m c t h0 h1]
    dsimp only
    refine (congrFun (Cert.KernelIdeal.Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 (0 : Fin 1) (0 : Fin 1))).trans ?_
    exact step_val m c hr t _ _

/-- THE RUNNING SUM IN CLOSED FORM: after step `n`, the block totals of the steps from the core's first one to `n`. -/
theorem acc_eq (c : Dev nD) (hr : Cert.Spec.InRange (labs m c)) : ∀ (n : ℕ) (h : n < cfg0.N),
    acc m c n h = ∑ s ∈ Finset.range (n % 32 + 1), blockTotal m c (n - n % 32 + s)
  | 0, h => by
    rw [acc_first m c hr ⟨0, h⟩ rfl]
    simp
  | n + 1, h => by
    by_cases h0 : (n + 1) % 32 = 0
    · rw [acc_first m c hr ⟨n + 1, h⟩ h0, h0]
      simp
    · rw [acc_next m c hr ⟨n + 1, h⟩ h0]
      show acc m c n _ + _ = _
      rw [acc_eq c hr n]
      have e1 : (n + 1) % 32 = n % 32 + 1 := by omega
      have e2 : n + 1 - (n % 32 + 1) = n - n % 32 := by omega
      have e3 : n - n % 32 + (n % 32 + 1) = n + 1 := by omega
      rw [e1, e2, Finset.sum_range_succ (fun s => blockTotal m c (n - n % 32 + s)) (n % 32 + 1), e3]

/-- At a core's last step every entry of the output block is the running sum. -/
theorem out_last (c : Dev nD) (t : Fin cfg0.N) (h1 : t.val % 32 = 31) (i : S8x128.Idx) :
    (outsAt0 m c t.val t.isLt).1 i = acc m c t.val t.isLt := by
  have h0 : ¬t.val % 32 = 0 := by omega
  unfold acc
  rw [outsAt0_C m c t h0 h1]
  dsimp only
  rw [Cert.KernelIdeal.Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
    Cert.KernelIdeal.Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  exact Cert.KernelIdeal.Pay.pay3_apply _ i

/-- THE TWO CORES TOGETHER: the running sums after steps 31 and 63 add up to the sum of all rows' squared distances. -/
theorem acc_total (c : Dev nD) (hr : Cert.Spec.InRange (labs m c)) (h31 : 31 < cfg0.N) (h63 : 63 < cfg0.N) :
    acc m c 31 h31 + acc m c 63 h63 = Cert.Spec.total (feat m c) (labs m c) (protos m c) := by
  rw [acc_eq m c hr 31 h31, acc_eq m c hr 63 h63]
  have e : ∑ s ∈ Finset.range (63 % 32 + 1), blockTotal m c (63 - 63 % 32 + s)
      = ∑ s ∈ Finset.range 32, blockTotal m c (32 + s) := rfl
  have e' : ∑ s ∈ Finset.range (31 % 32 + 1), blockTotal m c (31 - 31 % 32 + s)
      = ∑ s ∈ Finset.range 32, blockTotal m c s :=
    Finset.sum_congr rfl fun s _ => by rw [show 31 - 31 % 32 + s = s from by omega]
  rw [e, e', ← Finset.sum_range_add (fun s => blockTotal m c s) 32 32, Finset.sum_range]
  unfold blockTotal
  rw [Cert.LibSums.sum_blocks 64 2048 (rowTerm m c)]
  unfold Cert.Spec.total
  refine Finset.sum_congr rfl fun n _ => ?_
  unfold rowTerm
  rw [dif_pos n.isLt]

end Cert.KernelIdeal.Accum

end
-- ==== Proof.Final.lean ====
/-
  The kernel program's result.

  The output array has 16 rows of 128 entries: core 0's block is rows 0 to 7, written once, after step 31, and filled with
  core 0's running sum; core 1's block is rows 8 to 15, written after step 63 with core 1's. After the kernel the program
  takes entry (0, 0) and entry (8, 0), adds them, multiplies by the constant 2⁻¹⁷ = 1/131072 and returns the product as a
  1 × 1 array: the sum of all rows' squared distances times 1/131072, the mean.
-/
import proofs.«418353_j2035814498849_2_alg».proof.Proof.Accum
import Idealize.ShloMosaic.Lib.StableHlo.Run

set_option maxRecDepth 16384

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum

variable (m : (ℓ : Loc nD τ sig) → Buf (Elt Ideal) ℓ) (ρ : Dev nD → PrngReg)

theorem lt31 : 31 < cfg0.N := by rw [show cfg0.N = 64 from N_0]; decide
theorem lt63 : 63 < cfg0.N := by rw [show cfg0.N = 64 from N_0]; decide

/-- A 16 × 128 array whose first eight rows hold `a` and whose last eight hold `b`. -/
def halves (a b : EReal) : S16x128.Idx → EReal := fun i => if (i 0).val < 8 then a else b

/-- The output array after the kernel: core 0's sum in rows 0–7, core 1's in rows 8–15. -/
abbrev outArr (c : Dev nD) : Buf (Elt Ideal) ((c : Thread nD τ).loc main_v5) :=
  halves (acc m c 31 lt31) (acc m c 63 lt63)

/-- What a write-back writes is the output array's block there: the two write-backs are at steps 31 and 63. -/
theorem flushed_eq (c : Dev nD) (t : Fin cfg0.N) (hf : (cfg0.win 3).flush t = true) :
    (dats m 0 c).flushed 3 t = ((cfg0.win 3).blk t).view.read (Elt Ideal) (outArr m c) := by
  have h1 : t.val % 32 = 31 := (flush0_3 t).mp hf
  have hN : t.val < 64 := lt_of_lt_of_eq t.isLt (show cfg0.N = 64 from N_0)
  funext y
  show (dats m 0 c).after 3 t _ = _
  rw [after0_3]
  refine (out_last m c t h1 _).trans ?_
  rw [View.read_apply]
  show _ = halves _ _ (((cfg0.win 3).blk t).view.emb y)
  unfold halves
  have he : ((((cfg0.win 3).blk t).view.emb y) 0).val = win0_3.index t 0 * 8 + 1 * (y 0).val := rfl
  rcases (by omega : t.val = 31 ∨ t.val = 63) with h | h
  · obtain rfl : t = ⟨31, lt31⟩ := Fin.ext h
    have hy : (y 0).val < 8 := (y 0).isLt
    rw [if_pos (by rw [he, (idx_facts _).2.2.2.2.2.2.1]; omega)]
  · obtain rfl : t = ⟨63, lt63⟩ := Fin.ext h
    rw [if_neg (by rw [he, (idx_facts _).2.2.2.2.2.2.1]; omega)]

/-- Every entry of the output array lies in one of the two blocks written back. -/
theorem cover (c : Dev nD) (i : S16x128.Idx) :
    ∃ t : Fin cfg0.N, (cfg0.win 3).flush t = true ∧ i ∈ ((cfg0.win 3).blk t).view.set := by
  have h0 : (i 0).val < 16 := (i 0).isLt
  have h1 : (i 1).val < 128 := (i 1).isLt
  by_cases hi : (i 0).val < 8
  · refine ⟨⟨31, lt31⟩, (flush0_3 _).mpr rfl, ?_⟩
    show i ∈ ((View.whole main_v5).slice (win0_3.rect ⟨31, lt31⟩)).set
    rw [View.set_slice_whole, Rect.mem_set_unit]
    intro a
    match a with
    | ⟨0, _⟩ =>
      show win0_3.index ⟨31, lt31⟩ 0 * win0_3.size 0 ≤ (i 0 : Nat) ∧ (i 0 : Nat) < win0_3.index ⟨31, lt31⟩ 0 * win0_3.size 0 + win0_3.xsize (grid0.coords ⟨31, lt31⟩) 0
      rw [show win0_3.index ⟨31, lt31⟩ 0 * win0_3.size 0 = 0 from by decide +kernel, show win0_3.xsize (grid0.coords ⟨31, lt31⟩) 0 = 8 from by decide +kernel]; omega
    | ⟨1, _⟩ =>
      show win0_3.index ⟨31, lt31⟩ 1 * win0_3.size 1 ≤ (i 1 : Nat) ∧ (i 1 : Nat) < win0_3.index ⟨31, lt31⟩ 1 * win0_3.size 1 + win0_3.xsize (grid0.coords ⟨31, lt31⟩) 1
      rw [show win0_3.index ⟨31, lt31⟩ 1 * win0_3.size 1 = 0 from by decide +kernel, show win0_3.xsize (grid0.coords ⟨31, lt31⟩) 1 = 128 from by decide +kernel]; omega
  · refine ⟨⟨63, lt63⟩, (flush0_3 _).mpr rfl, ?_⟩
    show i ∈ ((View.whole main_v5).slice (win0_3.rect ⟨63, lt63⟩)).set
    rw [View.set_slice_whole, Rect.mem_set_unit]
    intro a
    match a with
    | ⟨0, _⟩ =>
      show win0_3.index ⟨63, lt63⟩ 0 * win0_3.size 0 ≤ (i 0 : Nat) ∧ (i 0 : Nat) < win0_3.index ⟨63, lt63⟩ 0 * win0_3.size 0 + win0_3.xsize (grid0.coords ⟨63, lt63⟩) 0
      rw [show win0_3.index ⟨63, lt63⟩ 0 * win0_3.size 0 = 8 from by decide +kernel, show win0_3.xsize (grid0.coords ⟨63, lt63⟩) 0 = 8 from by decide +kernel]; omega
    | ⟨1, _⟩ =>
      show win0_3.index ⟨63, lt63⟩ 1 * win0_3.size 1 ≤ (i 1 : Nat) ∧ (i 1 : Nat) < win0_3.index ⟨63, lt63⟩ 1 * win0_3.size 1 + win0_3.xsize (grid0.coords ⟨63, lt63⟩) 1
      rw [show win0_3.index ⟨63, lt63⟩ 1 * win0_3.size 1 = 0 from by decide +kernel, show win0_3.xsize (grid0.coords ⟨63, lt63⟩) 1 = 128 from by decide +kernel]; omega

/-- So the output array ends at the two sums, half and half. -/
theorem final_out (c : Dev nD) : (dats m 0 c).arrAt 3 cfg0.N = outArr m c :=
  (dats m 0 c).arrAt_eq_of_cover 3 (outArr m c) (flushed_eq m c) (cover c)

/-- The f32 pattern 0x37000000 is 2⁻¹⁷ = 1/131072. -/
theorem ofBits_inv : Ideal.ofBits .f32 0x37000000#32 = ((1 / 131072 : ℝ) : EReal) := by
  simp [Ideal.ofBits, Ideal.ieee, -EReal.coe_mul]; norm_num

/-- The lines after the kernel, as a term over the output array: entry (0, 0) plus entry (8, 0), times the constant,
    reshaped to 1 × 1. -/
theorem tail_fn (c : Dev nD) :
    (Pipeline.afterTail₀ cfgs (dats m) 0 (V0 m) [hostOps1] c main_v12 : S1x1.Idx → EReal)
      = shapeCast S1x1 (mulf (addf
          (shapeCast S_ (extractStridedSlice S1x1 ![0, 0] (outArr m c : S16x128.Idx → EReal) Gen.slices_S16x128_S1x1_0_0)
            Gen.shapeCasts_S1x1_S_ : FVec Ideal S_ .f32)
          (shapeCast S_ (extractStridedSlice S1x1 ![8, 0] (outArr m c : S16x128.Idx → EReal) Gen.slices_S16x128_S1x1_8_0)
            Gen.shapeCasts_S1x1_S_ : FVec Ideal S_ .f32))
          (constant S_ .f32 0x37000000#32) : FVec Ideal S_ .f32) Gen.shapeCasts_S_S1x1 := by
  unfold Pipeline.afterTail₀
  show (StableHlo.after (hostOps1 (F := Ideal)) _ (Proc.devRef .tc main_v12) : (⟨S1x1, .f32⟩ : BufTy).Contents (Elt Ideal)) = _
  after_results
  have hW : Pipeline.withArrays (cfgs 0).spec c (V0 m c) (fun w => (dats m 0 c).arrAt w (cfgs 0).N)
      (Proc.devRef .tc main_v5) = outArr m c :=
    (Pipeline.withArrays_arr spec0 launch0.win.arr_inj c _ _ 3).trans (final_out m c)
  rw [hW]
  rfl

/-- A rank-0 array made from a 1 × 1 one holds its one entry. -/
theorem scalar_of_1x1 (z : S1x1.Idx → EReal) (h : S1x1.ShapeCasts S_) (i : S_.Idx) :
    shapeCast S_ z h i = z (ix2 (0 : Fin 1) (0 : Fin 1)) := by
  refine shapeCast_apply z h i (ix2 (0 : Fin 1) (0 : Fin 1)) ?_
  rw [Shape.rowMajor_val_two]
  have := (S_.rowMajor i).isLt
  show 0 * 1 + 0 = _
  have hn : S_.numel = 1 := rfl
  omega

/-- The result's one entry: the two cores' sums added and multiplied by 1/131072. -/
theorem tail_val (c : Dev nD) (j : S1x1.Idx) :
    (Pipeline.afterTail₀ cfgs (dats m) 0 (V0 m) [hostOps1] c main_v12 : S1x1.Idx → EReal) j
      = (acc m c 31 lt31 + acc m c 63 lt63) * ((1 / 131072 : ℝ) : EReal) := by
  rw [tail_fn]
  have e : ∀ (Z : S_.Idx → EReal) (h : S_.ShapeCasts S1x1), shapeCast S1x1 Z h j = Z ix0 := fun Z h => by
    unfold shapeCast
    exact congrArg Z (funext fun a => a.elim0)
  rw [e]
  show (shapeCast S_ _ _ ix0 + shapeCast S_ _ _ ix0) * Ideal.ofBits .f32 0x37000000#32 = _
  rw [scalar_of_1x1, scalar_of_1x1, ofBits_inv]
  have s0 : extractStridedSlice S1x1 ![0, 0] (outArr m c : S16x128.Idx → EReal) Gen.slices_S16x128_S1x1_0_0 (ix2 (0 : Fin 1) (0 : Fin 1))
      = acc m c 31 lt31 := by
    refine (extractStridedSlice_apply _ _ _ _ (ix2 (0 : Fin 16) (0 : Fin 128)) (fun a => by
      match a with
      | ⟨0, _⟩ => rfl
      | ⟨1, _⟩ => rfl)).trans ?_
    show halves _ _ _ = _
    unfold halves
    exact if_pos (by decide)
  have s8 : extractStridedSlice S1x1 ![8, 0] (outArr m c : S16x128.Idx → EReal) Gen.slices_S16x128_S1x1_8_0 (ix2 (0 : Fin 1) (0 : Fin 1))
      = acc m c 63 lt63 := by
    refine (extractStridedSlice_apply _ _ _ _ (ix2 (8 : Fin 16) (0 : Fin 128)) (fun a => by
      match a with
      | ⟨0, _⟩ => rfl
      | ⟨1, _⟩ => rfl)).trans ?_
    show halves _ _ _ = _
    unfold halves
    exact if_neg (by decide)
  rw [s0, s8]

/-- THE KERNEL PROGRAM'S RUN: every fair execution ends with the result at the mean squared distance and the three
    arguments as they were, for labels inside the table. -/
theorem run (hr : ∀ c : Dev nD, Cert.Spec.InRange (labs m c)) :
    θ_run defs (onTc (τ := τ) (main (F := Ideal))) ⟨m, fun _ => 0, ρ⟩ (fun r => ∀ c : Dev nD,
      r.2.mem ((c.tc : Thread nD τ).loc main_v12) = Cert.Spec.meanDist (feat m c) (labs m c) (protos m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (funext fun j => by
        rw [tail_val m c j, acc_total m c (hr c) lt31 lt63]
        rfl),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.lean ====
/-
  The kernel and the reference compute the same number on the extended reals: the mean, over 131072 samples, of the squared
  distance between a sample's 512 features and the prototype row its label names, for labels inside the table of 1000
  prototypes.

  The reference gathers the prototype rows by label, subtracts, squares, sums each row, sums the rows and divides by
  131072. The kernel splits the rows into 64 blocks of 2048, two cores taking 32 blocks each; at a block it picks the
  prototype rows by multiplying an indicator matrix (a one where the row's label is the column) with the table padded by
  zero rows to 1024, sums the squared differences of the block, and adds the block's sum to a running sum it resets at
  each core's first block; each core's final sum fills its 8 × 128 output block, and the program adds one entry of each
  block and multiplies by 2⁻¹⁷. Three laws join the two: a row of the indicator matrix times the table is the table's row
  (zero times anything is zero, on the extended reals too); a sum over 131072 rows is the sum over 64 blocks of the sums
  over their 2048 rows (addition is commutative and associative, at the infinities too); and dividing by 131072 is
  multiplying by 2⁻¹⁷. None of them needs the inputs to be finite. The label range is needed: outside it the reference
  clamps a label into the table while the kernel's indicator row is empty.
-/
import proofs.«418353_j2035814498849_2_alg».proof.Defs
import proofs.«418353_j2035814498849_2_alg».proof.Proof.Gen.Kernel
import proofs.«418353_j2035814498849_2_alg».proof.Proof.Gen.Kernel.Skeleton
import proofs.«418353_j2035814498849_2_alg».proof.Proof.Gen.Kernel.Launch
import proofs.«418353_j2035814498849_2_alg».proof.Proof.Gen.Kernel.Points
import proofs.«418353_j2035814498849_2_alg».proof.Proof.Gen.Kernel.Frame
import proofs.«418353_j2035814498849_2_alg».proof.Proof.Gen.KernelIdeal
import proofs.«418353_j2035814498849_2_alg».proof.Proof.Gen.KernelIdeal.Skeleton
import proofs.«418353_j2035814498849_2_alg».proof.Proof.Gen.KernelIdeal.Launch
import proofs.«418353_j2035814498849_2_alg».proof.Proof.Gen.KernelIdeal.Points
import proofs.«418353_j2035814498849_2_alg».proof.Proof.Gen.KernelIdeal.Frame
import proofs.«418353_j2035814498849_2_alg».proof.Proof.Gen.ReferenceIdeal
import proofs.«418353_j2035814498849_2_alg».proof.Proof.Gen.ReferenceIdeal.Run
import proofs.«418353_j2035814498849_2_alg».proof.Proof.Gen.ReferenceIdeal.Read
import proofs.«418353_j2035814498849_2_alg».proof.Proof.Gen.Pre_finite_inputs
import proofs.«418353_j2035814498849_2_alg».proof.Proof.LabelRange
import proofs.«418353_j2035814498849_2_alg».proof.Proof.RefValue
import proofs.«418353_j2035814498849_2_alg».proof.Proof.Final
import Idealize.ShloMosaic.Adequacy
import Idealize.ShloMosaic.Init

noncomputable section

namespace Cert.Proof

open Idealize.ShloMosaic Idealize.SL.Sem

/-- The kernel's word-level program runs and leaves its arguments as they were. -/
theorem frame_k : @Cert.frame_Kernel Cert.Kernel.Gen.facts Cert.Pre_finite_inputs.Gen.facts :=
  fun m ρ _ => Cert.Kernel.Gen.frame m ρ

/-- So does the kernel read on the extended reals. -/
theorem frame_ki : @Cert.frame_KernelIdeal Cert.KernelIdeal.Gen.facts Cert.Pre_finite_inputs.Gen.facts :=
  fun m ρ _ => Cert.KernelIdeal.Gen.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The kernel read on the extended reals is the kernel's own text: nothing was rewritten. -/
theorem preserves : Cert.preserves_Kernel_KernelIdeal := trivial

/-- Both programs end at the mean squared distance of the arguments they share: the kernel by the running sums of its
    64 blocks, the reference by its two sums and the quotient; the precondition puts every label inside the table. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hr : ∀ c : Dev Cert.KernelIdeal.nD, Cert.Spec.InRange (Cert.KernelIdeal.Accum.labs m c) := fun c =>
    @Cert.LabelRange.inRange_of_pre Ideal _ Cert.Pre_finite_inputs.Gen.facts _ _ _ (hpre c)
  refine ⟨fun c => Cert.Spec.meanDist (Cert.KernelIdeal.Accum.feat m c) (Cert.KernelIdeal.Accum.labs m c)
    (Cert.KernelIdeal.Accum.protos m c), Cert.KernelIdeal.Final.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2]
  exact Cert.RefValue.ref_value _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
